-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x384 : Shape := ⟨2, ![128, 384]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S640000 .f32) (main_arg2 : FVec F S128x384 .f32) (main_arg3 : FVec F S128 .f32) (main_arg4 : FVec F S128 .f32) (main_arg5 : FVec F S128 .f32) (main_arg6 : IVec S640000 32) (main_arg7 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x384 .f32 := Host.absf main_arg2
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S640000 : Shape := ⟨1, ![640000]⟩
abbrev S128x384 : Shape := ⟨2, ![128, 384]⟩
abbrev S128 : Shape := ⟨1, ![128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S10000x384 : Shape := ⟨2, ![10000, 384]⟩
abbrev S384x128 : Shape := ⟨2, ![384, 128]⟩
abbrev S1x128 : Shape := ⟨2, ![1, 128]⟩
abbrev S1000x384 : Shape := ⟨2, ![1000, 384]⟩
abbrev S1000x128 : Shape := ⟨2, ![1000, 128]⟩
abbrev S1000 : Shape := ⟨1, ![1000]⟩
abbrev S1000x1 : Shape := ⟨2, ![1000, 1]⟩

abbrev nBuf : Space → Nat
  | .hbm => 68
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S640000, .f32⟩
  | .hbm, ⟨2, _⟩ => ⟨S128x384, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S10000, .f32⟩
  | .hbm, ⟨12, _⟩ => ⟨S640000x1, .i32⟩
  | .hbm, ⟨13, _⟩ => ⟨S10000, .f32⟩
  | .hbm, ⟨14, _⟩ => ⟨S_, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000x1, .f32⟩
  | .hbm, ⟨22, _⟩ => ⟨S10000x128, .f32⟩
  | .hbm, ⟨23, _⟩ => ⟨S10000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x1, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S10000x128, .f32⟩
  | .hbm, ⟨38, _⟩ => ⟨S640000x1, .i32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S640000x1, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S10000x128, .f32⟩
  | .hbm, ⟨58, _⟩ => ⟨S640000x1, .i32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x384, .f32⟩
  | .hbm, ⟨63, _⟩ => ⟨S384x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S10000x128, .f32⟩
  | .local _ .vmem, ⟨0, _⟩ => ⟨S1000x384, .f32⟩
  | .local _ .vmem, ⟨1, _⟩ => ⟨S1000x384, .f32⟩
  | .local _ .vmem, ⟨2, _⟩ => ⟨S384x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1000x128, .f32⟩
  | .local _ .vmem, ⟨7, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  concatenates_S10000x128_S10000x128_S10000x128_S10000x384_d1 : Shape.Concatenates [S10000x128, S10000x128, S10000x128] S10000x384 1
  transposes_S128x384_S384x128_1_0 : S128x384.Transposes [1, 0] S384x128
  shapeCasts_S128_S1x128 : S128.ShapeCasts S1x128
  inb_S1000x384_S1000x384_0_0 : ∀ a, (![0, 0] : Fin 2 → Nat) a + S1000x384.size a ≤ S1000x384.size a
  h_S1000x384 : 0 < S1000x384.numel
  shapeCasts_S1000x384_S1000x384 : S1000x384.ShapeCasts S1000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  inb_S1000x128_S1000x128_0_0 : ∀ a, (![0, 0] : Fin 2 → Nat) a + S1000x128.size a ≤ S1000x128.size a
  h_S1000x128 : 0 < S1000x128.numel
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x384_S384x128_S1000x128_1_0_0_1_n_n_wf : DotDims.WF S1000x384 S384x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x384.size a ≤ S10000x384.size a
  hwx0_0 : ∀ i : grid0.Coords, EltTy.bits .f32 = 32 ∨ (Rect.block (s := S10000x384) S1000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S10000x128.size a
  hwx0_5 : ∀ i : grid0.Coords, EltTy.bits .f32 = 32 ∨ (Rect.block (s := S10000x128) S1000x128.size (cc0_transform_5 i) (hinb0_5 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x384_S384x128_S1000x128_1_0_0_1_n_n : DotDims S1000x384 S384x128 S1000x128 where
  lhsContracting := [1]
  rhsContracting := [0]
  lhsNonContracting := [0]
  rhsNonContracting := [1]
  lhsBatch := []
  rhsBatch := []
  wf := dot_S1000x384_S384x128_S1000x128_1_0_0_1_n_n_wf

abbrev win0_0 : Pipeline.Window sig grid0 :=
  Pipeline.Window.ofSpec (Memref.whole main_v42) S1000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000 : Shape := ⟨1, ![640000]⟩
abbrev S128x384 : Shape := ⟨2, ![128, 384]⟩
abbrev S128 : Shape := ⟨1, ![128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S10000x384 : Shape := ⟨2, ![10000, 384]⟩
abbrev S384x128 : Shape := ⟨2, ![384, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .f32⟩
  | .hbm, ⟨2, _⟩ => ⟨S128x384, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S10000, .f32⟩
  | .hbm, ⟨12, _⟩ => ⟨S640000x1, .i32⟩
  | .hbm, ⟨13, _⟩ => ⟨S10000, .f32⟩
  | .hbm, ⟨14, _⟩ => ⟨S_, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000x1, .f32⟩
  | .hbm, ⟨22, _⟩ => ⟨S10000x128, .f32⟩
  | .hbm, ⟨23, _⟩ => ⟨S10000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x1, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S10000x128, .f32⟩
  | .hbm, ⟨38, _⟩ => ⟨S640000x1, .i32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S640000x1, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S10000x128, .f32⟩
  | .hbm, ⟨58, _⟩ => ⟨S640000x1, .i32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x384, .f32⟩
  | .hbm, ⟨63, _⟩ => ⟨S384x128, .f32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000, .f32⟩
  | .hbm, ⟨70, _⟩ => ⟨S10000x1, .f32⟩
  | .hbm, ⟨71, _⟩ => ⟨S_, .f32⟩
  | .hbm, ⟨72, _⟩ => ⟨S10000x1, .f32⟩
  | .hbm, ⟨73, _⟩ => ⟨S10000x1, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S_, .f32⟩
  | .hbm, ⟨78, _⟩ => ⟨S10000, .f32⟩
  | .hbm, ⟨79, _⟩ => ⟨S10000x1, .f32⟩
  | .hbm, ⟨80, _⟩ => ⟨S_, .f32⟩
  | .hbm, ⟨81, _⟩ => ⟨S10000x1, .f32⟩
  | .hbm, ⟨82, _⟩ => ⟨S10000x1, .f32⟩
  | .hbm, ⟨83, _⟩ => ⟨S10000x128, .f32⟩
  | .hbm, ⟨84, _⟩ => ⟨S10000x128, .f32⟩
  | .hbm, ⟨85, _⟩ => ⟨S_, .f32⟩
  | .hbm, ⟨86, _⟩ => ⟨S10000x1, .f32⟩
  | .hbm, ⟨87, _⟩ => ⟨S10000x1, .f32⟩
  | .hbm, ⟨88, _⟩ => ⟨S10000x1, .f32⟩
  | .hbm, ⟨89, _⟩ => ⟨S10000x128, .f32⟩
  | .hbm, ⟨90, _⟩ => ⟨S10000x128, .f32⟩
  | .hbm, ⟨91, _⟩ => ⟨S1x128, .f32⟩
  | .hbm, ⟨92, _⟩ => ⟨S10000x128, .f32⟩
  | .hbm, ⟨93, _⟩ => ⟨S10000x128, .f32⟩
  | .hbm, ⟨94, _⟩ => ⟨S1x128, .f32⟩
  | .hbm, ⟨95, _⟩ => ⟨S10000x128, .f32⟩
  | .hbm, ⟨96, _⟩ => ⟨S10000x128, .f32⟩
  | .hbm, ⟨97, _⟩ => ⟨S_, .f32⟩
  | .hbm, ⟨98, _⟩ => ⟨S10000x128, .f32⟩
  | .hbm, ⟨99, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call1_cst : Ref sig .tc := ⟨.hbm, 97, rfl⟩
abbrev main_call1_v0 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  concatenates_S10000x128_S10000x128_S10000x128_S10000x384_d1 : Shape.Concatenates [S10000x128, S10000x128, S10000x128] S10000x384 1
  transposes_S128x384_S384x128_1_0 : S128x384.Transposes [1, 0] S384x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000x1 : S_.BroadcastsInDim S10000x1 (![] : Fin 0 → Fin S10000x1.rank)
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x384_S384x128_S10000x128_1_0_0_1_n_n_wf : DotDims.WF S10000x384 S384x128 S10000x128 [1] [0] [0] [1] [] []

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x384_S384x128_S10000x128_1_0_0_1_n_n : DotDims S10000x384 S384x128 S10000x128 where
  lhsContracting := [1]
  rhsContracting := [0]
  lhsNonContracting := [0]
  rhsNonContracting := [1]
  lhsBatch := []
  rhsBatch := []
  wf := dot_S10000x384_S384x128_S10000x128_1_0_0_1_n_n_wf

class Facts : Prop extends Facts₀ where

variable [Facts]
-- ==== Proof.KernelRegion.lean ====
/- The frame of `Kernel`: the program runs to its end on every weakly fair schedule, faults nowhere,
   and leaves its eight argument arrays as it found them.

   @main is three stretches of host operations (the degree normalisation and the two propagation
   hops, each a gather along the source index and a scatter-add along the target index; then the
   three feature blocks joined side by side, the weight matrix transposed, and the three
   128-vectors laid out as single rows) followed by ONE pipelined region over ten row blocks.
   No host operation writes an argument, so the region finds each argument as launched.

   At a grid point the body reads five staged blocks — 1000 feature rows, the whole 384×128
   weight, and the three single rows — and overwrites the whole 1000×128 output block with one
   value computed from them; it keeps nothing between points. So the proof data says: every input's
   staging buffer holds that input's block, and the output's holds the body's one stored value of
   those blocks. -/
import proofs.«173132_j32899449488056_1_alg».proof.Proof.Gen.Kernel.Launch
import proofs.«173132_j32899449488056_1_alg».proof.Proof.Gen.Kernel.Skeleton
import proofs.«173132_j32899449488056_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The three stretches of host operations, in program order. -/
abbrev hostStretches : List (List (HloOp τ sig (Elt F))) := [hostOps0, hostOps0_1, hostOps0_2]

/-- What core `c`'s buffers hold when the region is entered: the launch contents pushed through
    every host operation. -/
abbrev V (c : Dev nD) (b : Ref sig .tc) : Buf (Elt F) ((c : Thread nD τ).loc b) :=
  StableHlo.after (List.flatten (hostStretches (F := F))) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨fresh0, fresh1, fresh2⟩) main_chain

/-- A buffer no host operation writes is found as launched. The side goal is one inequality of
    buffer names per operation (59 of them, the joining of the three feature blocks included). -/
local macro "no_host_write" : tactic => `(tactic| (
  refine StableHlo.after_of_forall_not_mem _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

theorem V_arg0 (c : Dev nD) : V m c main_arg0 = m ((c : Thread nD τ).loc main_arg0) := by
  show StableHlo.after _ _ (Proc.devRef .tc main_arg0) = _; no_host_write
theorem V_arg1 (c : Dev nD) : V m c main_arg1 = m ((c : Thread nD τ).loc main_arg1) := by
  show StableHlo.after _ _ (Proc.devRef .tc main_arg1) = _; no_host_write
theorem V_arg2 (c : Dev nD) : V m c main_arg2 = m ((c : Thread nD τ).loc main_arg2) := by
  show StableHlo.after _ _ (Proc.devRef .tc main_arg2) = _; no_host_write
theorem V_arg3 (c : Dev nD) : V m c main_arg3 = m ((c : Thread nD τ).loc main_arg3) := by
  show StableHlo.after _ _ (Proc.devRef .tc main_arg3) = _; no_host_write
theorem V_arg4 (c : Dev nD) : V m c main_arg4 = m ((c : Thread nD τ).loc main_arg4) := by
  show StableHlo.after _ _ (Proc.devRef .tc main_arg4) = _; no_host_write
theorem V_arg5 (c : Dev nD) : V m c main_arg5 = m ((c : Thread nD τ).loc main_arg5) := by
  show StableHlo.after _ _ (Proc.devRef .tc main_arg5) = _; no_host_write
theorem V_arg6 (c : Dev nD) : V m c main_arg6 = m ((c : Thread nD τ).loc main_arg6) := by
  show StableHlo.after _ _ (Proc.devRef .tc main_arg6) = _; no_host_write
theorem V_arg7 (c : Dev nD) : V m c main_arg7 = m ((c : Thread nD τ).loc main_arg7) := by
  show StableHlo.after _ _ (Proc.devRef .tc main_arg7) = _; no_host_write

/-! ## Blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point: where the point does
    not fetch it, its block index has not moved since the point that did. One statement per input
    window (the feature rows move with the point; the weight and the three rows never move). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the arguments unchanged -/

/-- No window of the pipeline stages an argument array (the windows' arrays are the joined
    features, the transposed weight, the three rows and the result), so the run's post hands each
    argument back as the region found it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c)⟩) h

/-! ## The body -/

/-- The whole of each staged block, as the rectangle the body loads or stores. -/
abbrev rFeat : Rect S1000x384 := Rect.unit (s := S1000x384) ![0, 0] S1000x384.size inb_S1000x384_S1000x384_0_0
abbrev rWgt : Rect S384x128 := Rect.unit (s := S384x128) ![0, 0] S384x128.size inb_S384x128_S384x128_0_0
abbrev rRow : Rect S1x128 := Rect.unit (s := S1x128) ![0, 0] S1x128.size inb_S1x128_S1x128_0_0
abbrev rOut : Rect S1000x128 := Rect.unit (s := S1000x128) ![0, 0] S1000x128.size inb_S1000x128_S1000x128_0_0

/-- What the output's staging buffer holds after the body: the one store, over the whole block, of
    the body's value of the five loaded blocks. -/
def outBlock (x0 : Vec F S1000x384 .f32) (x1 : Vec F S384x128 .f32) (x2 x3 x4 : Vec F S1x128 .f32) : Vec F S1000x128 .f32 :=
  View.canon [⟨rOut, k0_pay1 (View.ld x0 rFeat) (View.ld x1 rWgt) (View.ld x2 rRow) (View.ld x3 rRow) (View.ld x4 rRow)⟩]

/-- That store covers the buffer. -/
theorem outCover (p0 : Vec F S1000x128 .f32) (y : S1000x128.Idx) :
    ∃ pc ∈ ([⟨rOut, p0⟩] : List (View.Piece (Elt F) S1000x128 .f32)), y ∈ pc.1.set :=
  View.cover_of_tiled [⟨rOut, p0⟩] S1000x128.size (by rfl) y

set_option maxHeartbeats 4000000 in
/-- The body on whole staging buffers: given the five inputs at contents `x0 … x4` and the output at
    anything, it ends with the inputs as they were and the output at `outBlock` of them. -/
theorem sound_kernel (c : Dev nD) (E : Set ℕ) (i : grid0.Coords)
    (arg1 : Memref sig .tc .vmem S1000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1000x128 .f32) (harg6 : arg6.IsWhole)
    (x0 : Vec F S1000x384 .f32) (x1 : Vec F S384x128 .f32) (x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__fused_linear_ln_relu_kernel i arg1 harg1 arg2 harg2 arg3 harg3 arg4 harg4 arg5 harg5 arg6 harg6) K := by
  simp only [cc0__fused_linear_ln_relu_kernel_eq_skeleton]; unfold cc0__fused_linear_ln_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The proof data -/

/-- On core `c`: the arrays as the region finds them; after the body at point `t` each input's buffer
    at its block and the output's at `outBlock` of the five input blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d
theorem before_4 (c : Dev nD) (t : Fin cfg0.N) (d) : (dats m 0 c).before 4 t d = iblk m c 4 t :=
  before_in4 m (dats m 0 c) (A_eq m c 4) (after_4 m c) t d

/-! ## The body at a point -/

/-- What the pipeline hands the body at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and its final state has every array of the
    pipeline at what the proof data's write-backs make of it and every other buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Region

end
-- ==== Proof.KernelIdealRegion.lean ====
/- The frame of `KernelIdeal`: the program runs to its end on every weakly fair schedule, faults nowhere,
   and leaves its eight argument arrays as it found them.

   @main is three stretches of host operations (the degree normalisation and the two propagation
   hops, each a gather along the source index and a scatter-add along the target index; then the
   three feature blocks joined side by side, the weight matrix transposed, and the three
   128-vectors laid out as single rows) followed by ONE pipelined region over ten row blocks.
   No host operation writes an argument, so the region finds each argument as launched.

   At a grid point the body reads five staged blocks — 1000 feature rows, the whole 384×128
   weight, and the three single rows — and overwrites the whole 1000×128 output block with one
   value computed from them; it keeps nothing between points. So the proof data says: every input's
   staging buffer holds that input's block, and the output's holds the body's one stored value of
   those blocks. -/
import proofs.«173132_j32899449488056_1_alg».proof.Proof.Gen.KernelIdeal.Launch
import proofs.«173132_j32899449488056_1_alg».proof.Proof.Gen.KernelIdeal.Skeleton
import proofs.«173132_j32899449488056_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The three stretches of host operations, in program order. -/
abbrev hostStretches : List (List (HloOp τ sig (Elt F))) := [hostOps0, hostOps0_1, hostOps0_2]

/-- What core `c`'s buffers hold when the region is entered: the launch contents pushed through
    every host operation. -/
abbrev V (c : Dev nD) (b : Ref sig .tc) : Buf (Elt F) ((c : Thread nD τ).loc b) :=
  StableHlo.after (List.flatten (hostStretches (F := F))) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨fresh0, fresh1, fresh2⟩) main_chain

/-- A buffer no host operation writes is found as launched. The side goal is one inequality of
    buffer names per operation (59 of them, the joining of the three feature blocks included). -/
local macro "no_host_write" : tactic => `(tactic| (
  refine StableHlo.after_of_forall_not_mem _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

theorem V_arg0 (c : Dev nD) : V m c main_arg0 = m ((c : Thread nD τ).loc main_arg0) := by
  show StableHlo.after _ _ (Proc.devRef .tc main_arg0) = _; no_host_write
theorem V_arg1 (c : Dev nD) : V m c main_arg1 = m ((c : Thread nD τ).loc main_arg1) := by
  show StableHlo.after _ _ (Proc.devRef .tc main_arg1) = _; no_host_write
theorem V_arg2 (c : Dev nD) : V m c main_arg2 = m ((c : Thread nD τ).loc main_arg2) := by
  show StableHlo.after _ _ (Proc.devRef .tc main_arg2) = _; no_host_write
theorem V_arg3 (c : Dev nD) : V m c main_arg3 = m ((c : Thread nD τ).loc main_arg3) := by
  show StableHlo.after _ _ (Proc.devRef .tc main_arg3) = _; no_host_write
theorem V_arg4 (c : Dev nD) : V m c main_arg4 = m ((c : Thread nD τ).loc main_arg4) := by
  show StableHlo.after _ _ (Proc.devRef .tc main_arg4) = _; no_host_write
theorem V_arg5 (c : Dev nD) : V m c main_arg5 = m ((c : Thread nD τ).loc main_arg5) := by
  show StableHlo.after _ _ (Proc.devRef .tc main_arg5) = _; no_host_write
theorem V_arg6 (c : Dev nD) : V m c main_arg6 = m ((c : Thread nD τ).loc main_arg6) := by
  show StableHlo.after _ _ (Proc.devRef .tc main_arg6) = _; no_host_write
theorem V_arg7 (c : Dev nD) : V m c main_arg7 = m ((c : Thread nD τ).loc main_arg7) := by
  show StableHlo.after _ _ (Proc.devRef .tc main_arg7) = _; no_host_write

/-! ## Blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point: where the point does
    not fetch it, its block index has not moved since the point that did. One statement per input
    window (the feature rows move with the point; the weight and the three rows never move). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the arguments unchanged -/

/-- No window of the pipeline stages an argument array (the windows' arrays are the joined
    features, the transposed weight, the three rows and the result), so the run's post hands each
    argument back as the region found it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c)⟩) h

/-! ## The body -/

/-- The whole of each staged block, as the rectangle the body loads or stores. -/
abbrev rFeat : Rect S1000x384 := Rect.unit (s := S1000x384) ![0, 0] S1000x384.size inb_S1000x384_S1000x384_0_0
abbrev rWgt : Rect S384x128 := Rect.unit (s := S384x128) ![0, 0] S384x128.size inb_S384x128_S384x128_0_0
abbrev rRow : Rect S1x128 := Rect.unit (s := S1x128) ![0, 0] S1x128.size inb_S1x128_S1x128_0_0
abbrev rOut : Rect S1000x128 := Rect.unit (s := S1000x128) ![0, 0] S1000x128.size inb_S1000x128_S1000x128_0_0

/-- What the output's staging buffer holds after the body: the one store, over the whole block, of
    the body's value of the five loaded blocks. -/
def outBlock (x0 : Vec F S1000x384 .f32) (x1 : Vec F S384x128 .f32) (x2 x3 x4 : Vec F S1x128 .f32) : Vec F S1000x128 .f32 :=
  View.canon [⟨rOut, k0_pay1 (View.ld x0 rFeat) (View.ld x1 rWgt) (View.ld x2 rRow) (View.ld x3 rRow) (View.ld x4 rRow)⟩]

/-- That store covers the buffer. -/
theorem outCover (p0 : Vec F S1000x128 .f32) (y : S1000x128.Idx) :
    ∃ pc ∈ ([⟨rOut, p0⟩] : List (View.Piece (Elt F) S1000x128 .f32)), y ∈ pc.1.set :=
  View.cover_of_tiled [⟨rOut, p0⟩] S1000x128.size (by rfl) y

set_option maxHeartbeats 4000000 in
/-- The body on whole staging buffers: given the five inputs at contents `x0 … x4` and the output at
    anything, it ends with the inputs as they were and the output at `outBlock` of them. -/
theorem sound_kernel (c : Dev nD) (E : Set ℕ) (i : grid0.Coords)
    (arg1 : Memref sig .tc .vmem S1000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1000x128 .f32) (harg6 : arg6.IsWhole)
    (x0 : Vec F S1000x384 .f32) (x1 : Vec F S384x128 .f32) (x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__fused_linear_ln_relu_kernel i arg1 harg1 arg2 harg2 arg3 harg3 arg4 harg4 arg5 harg5 arg6 harg6) K := by
  simp only [cc0__fused_linear_ln_relu_kernel_eq_skeleton]; unfold cc0__fused_linear_ln_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The proof data -/

/-- On core `c`: the arrays as the region finds them; after the body at point `t` each input's buffer
    at its block and the output's at `outBlock` of the five input blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d
theorem before_4 (c : Dev nD) (t : Fin cfg0.N) (d) : (dats m 0 c).before 4 t d = iblk m c 4 t :=
  before_in4 m (dats m 0 c) (A_eq m c 4) (after_4 m c) t d

/-! ## The body at a point -/

/-- What the pipeline hands the body at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and its final state has every array of the
    pipeline at what the proof data's write-backs make of it and every other buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Region

end
-- ==== Proof.RowNorm.lean ====
/- One row of the layer: an affine map of a 384-wide feature row into 128 channels, then layer
   normalisation over the 128 channels, a per-channel scale and shift, and a clip below at zero.
   Everything is an extended real; sums are finite sums over the channel or feature index. -/
import Idealize.ShloMosaic.PureOps.Ideal
import Idealize.ShloMosaic.Lib.ValueIdx

noncomputable section

namespace Cert.RowNorm

open Idealize.ShloMosaic

/-- Channel `q` of the affine image of a feature row `f`: `∑ k, f k · W k q + b q`. -/
def lin (f : Fin 384 → EReal) (W : Fin 384 → Fin 128 → EReal) (b : Fin 128 → EReal) (q : Fin 128) : EReal :=
  (∑ k : Fin 384, f k * W k q) + b q

/-- The mean of a row of 128 channels: their sum divided by the float 128. -/
def avg (x : Fin 128 → EReal) : EReal :=
  Ideal.div (∑ q : Fin 128, x q) (Ideal.ofBits .f32 0x43000000#32)

/-- The centred row. -/
def ctr (x : Fin 128 → EReal) (q : Fin 128) : EReal := x q - avg x

/-- The reciprocal standard deviation of a row: `rsqrt (mean of squared deviations + ε)`, ε the float nearest 1e-5. -/
def istd (x : Fin 128 → EReal) : EReal :=
  Ideal.rsqrt (avg (fun j => ctr x j * ctr x j) + Ideal.ofBits .f32 0x3727C5AC#32)

/-- Channel `q` of the normalised row, scaled by `γ`, shifted by `β`, clipped below at zero. -/
def normRelu (x γ β : Fin 128 → EReal) (q : Fin 128) : EReal :=
  max (ctr x q * istd x * γ q + β q) 0

end Cert.RowNorm

end
-- ==== Proof.PayRow.lean ====
/- The kernel body's one stored value, read at an index (p, q) of its 1000 × 128 block, is the row
   specification: row p of X through the affine map (W, b), layer normalisation over the 128 channels,
   scale γ, shift β, clip below at zero. The body is cut into stages — the affine image, the keepdims
   mean column, the centred block, the reciprocal-deviation column — each read at an index by a lemma
   over an abstract block, and the stages are composed at the end. -/
import proofs.«173132_j32899449488056_1_alg».proof.Proof.Gen.KernelIdeal.Skeleton
import proofs.«173132_j32899449488056_1_alg».proof.Proof.RowNorm
import Idealize.ShloMosaic.Lib.ValueLayout
import Idealize.ShloMosaic.PureOps.Ideal.Laws

noncomputable section

namespace Cert.KernelIdeal.PayRow

open Cert.KernelIdeal Idealize.ShloMosaic Idealize.ShloMosaic.ValueIdx

/-! ## Two keepdims layout readings -/

section Layout
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum of a 1000 × 128 block -/

/-- The reduced index p with the lane q put back on axis 1 is (p, q). -/
theorem lift_row (h : S1000x128.Reduces [1] S1000) (p : Fin 1000) (k : Fin 128) : h.lift (ix1 p) k = ix2 p k :=
  funext fun a => Fin.ext (by match a with | ⟨0, _⟩ => rfl | ⟨1, _⟩ => rfl)

/-- The sum over axis 1, read at row p, is the sum of the row's 128 entries. -/
theorem laneSum_apply (y : FVec Ideal S1000x128 .f32) (h : S1000x128.Reduces [1] S1000) (hφ : FKind.Formats .f32)
    (hacc : (0x00000000#32 : BitVec (FTy.bits .f32)) = FKind.add.neutral .f32 hφ) (p : Fin 1000) :
    multiReduction (F := Ideal) .add [1] S1000 y 0x00000000#32 h hφ hacc (ix1 p) = ∑ q : Fin 128, y (ix2 p q) :=
  (Ideal.multiReduction_add_single y 0x00000000#32 h hφ hacc (ix1 p)).trans
    (Finset.sum_congr rfl fun k _ => congrArg y (lift_row h p k))

/-! ## The stages of the body over an abstract block -/

/-- The keepdims mean column of a block: the lane sums, as a column, over the float 128. -/
def meanCol (y : FVec Ideal S1000x128 .f32) : FVec Ideal S1000x1 .f32 :=
  divf (shapeCast S1000x1 (multiReduction (F := Ideal) .add [1] S1000 y 0x00000000#32 Gen.reduces_S1000x128_S1000 (.inl rfl) rfl) Gen.shapeCasts_S1000_S1000x1)
    (broadcast S1000x1 (Scalar.ofBits (F := Ideal) .f32 0x43000000#32))

/-- Its entry of row p is the mean of row p. -/
theorem meanCol_apply (y : FVec Ideal S1000x128 .f32) (p : Fin 1000) (u : Fin 1) :
    meanCol y (ix2 p u) = RowNorm.avg (fun q => y (ix2 p q)) :=
  congrArg (fun s => Ideal.div s (Ideal.ofBits .f32 0x43000000#32))
    ((shapeCast_a_a1_apply _ Gen.shapeCasts_S1000_S1000x1 p u).trans (laneSum_apply y _ _ _ p))

/-- The block with each row's mean taken off. -/
def ctrV (y : FVec Ideal S1000x128 .f32) : FVec Ideal S1000x128 .f32 :=
  subf y (broadcastTo S1000x128 (meanCol y) Gen.broadcasts_S1000x1_S1000x128)

/-- Its entry (p, q) is channel q of the centred row p. -/
theorem ctrV_apply (y : FVec Ideal S1000x128 .f32) (p : Fin 1000) (q : Fin 128) :
    ctrV y (ix2 p q) = RowNorm.ctr (fun j => y (ix2 p j)) q :=
  congrArg (fun s => y (ix2 p q) - s)
    ((broadcastTo_a1_ab_apply (meanCol y) Gen.broadcasts_S1000x1_S1000x128 p q).trans (meanCol_apply y p 0))

/-- The keepdims column of reciprocal standard deviations. -/
def istdCol (y : FVec Ideal S1000x128 .f32) : FVec Ideal S1000x1 .f32 :=
  rsqrt (addf (meanCol (mulf (ctrV y) (ctrV y))) (broadcast S1000x1 (Scalar.ofBits (F := Ideal) .f32 0x3727C5AC#32)))

/-- Its entry of row p is the reciprocal standard deviation of row p. -/
theorem istdCol_apply (y : FVec Ideal S1000x128 .f32) (p : Fin 1000) (u : Fin 1) :
    istdCol y (ix2 p u) = RowNorm.istd (fun j => y (ix2 p j)) :=
  congrArg (fun s => Ideal.rsqrt (s + Ideal.ofBits .f32 0x3727C5AC#32))
    ((meanCol_apply (mulf (ctrV y) (ctrV y)) p u).trans
      (congrArg RowNorm.avg (funext fun j =>
        show ctrV y (ix2 p j) * ctrV y (ix2 p j) = _ by rw [ctrV_apply])))

/-- Everything after the affine image: normalise, scale, shift, clip. -/
def tail (y : FVec Ideal S1000x128 .f32) (γ β : Vec Ideal S1x128 .f32) : FVec Ideal S1000x128 .f32 :=
  maximumf
    (addf
      (mulf (mulf (ctrV y) (broadcastTo S1000x128 (istdCol y) Gen.broadcasts_S1000x1_S1000x128))
        (broadcastTo S1000x128 (shapeCast S1x128 γ Gen.shapeCasts_S1x128_S1x128) Gen.broadcasts_S1x128_S1000x128))
      (broadcastTo S1000x128 (shapeCast S1x128 β Gen.shapeCasts_S1x128_S1x128) Gen.broadcasts_S1x128_S1000x128))
    (broadcast S1000x128 (Scalar.ofBits (F := Ideal) .f32 0x00000000#32))

/-- A 1 × 128 row, identity-cast and broadcast over the 1000 rows, reads its channel q at (p, q). -/
theorem rowBcast_apply (r : Vec Ideal S1x128 .f32) (p : Fin 1000) (q : Fin 128) :
    broadcastTo S1000x128 (shapeCast S1x128 r Gen.shapeCasts_S1x128_S1x128) Gen.broadcasts_S1x128_S1000x128 (ix2 p q)
      = r (ix2 (0 : Fin 1) q) :=
  (broadcastTo_1b_ab_apply _ Gen.broadcasts_S1x128_S1000x128 p q).trans
    (congrFun (shapeCast_self r Gen.shapeCasts_S1x128_S1x128) _)

/-- The tail at (p, q) is the normalised, scaled, shifted, clipped row p at channel q. -/
theorem tail_apply (y : FVec Ideal S1000x128 .f32) (γ β : Vec Ideal S1x128 .f32) (p : Fin 1000) (q : Fin 128) :
    tail y γ β (ix2 p q)
      = RowNorm.normRelu (fun j => y (ix2 p j)) (fun j => γ (ix2 0 j)) (fun j => β (ix2 0 j)) q := by
  show max (ctrV y (ix2 p q) * broadcastTo S1000x128 (istdCol y) Gen.broadcasts_S1000x1_S1000x128 (ix2 p q)
        * broadcastTo S1000x128 (shapeCast S1x128 γ Gen.shapeCasts_S1x128_S1x128) Gen.broadcasts_S1x128_S1000x128 (ix2 p q)
        + broadcastTo S1000x128 (shapeCast S1x128 β Gen.shapeCasts_S1x128_S1x128) Gen.broadcasts_S1x128_S1000x128 (ix2 p q))
      (Ideal.ofBits .f32 0x00000000#32) = _
  rw [ctrV_apply, broadcastTo_a1_ab_apply, istdCol_apply, rowBcast_apply, rowBcast_apply, Ideal.ofBits_zero_f32]
  rfl

/-! ## The affine image: the product into the zero splat, plus the bias row -/

theorem lhs_0 (i : S1000x128.Idx) (q : dot_S1000x384_S384x128_S1000x128_1_0_0_1_n_n.contr.Idx) :
    (dot_S1000x384_S384x128_S1000x128_1_0_0_1_n_n.lhsIdx i q 0).val = (i 0).val := by
  unfold DotDims.lhsIdx
  rw [dif_neg (show ¬(0 : Fin S1000x384.rank) ∈ dot_S1000x384_S384x128_S1000x128_1_0_0_1_n_n.lhsBatch by decide), dif_pos (show (0 : Fin S1000x384.rank) ∈ dot_S1000x384_S384x128_S1000x128_1_0_0_1_n_n.lhsNonContracting by decide)]
  rfl
theorem lhs_1 (i : S1000x128.Idx) (q : dot_S1000x384_S384x128_S1000x128_1_0_0_1_n_n.contr.Idx) :
    (dot_S1000x384_S384x128_S1000x128_1_0_0_1_n_n.lhsIdx i q 1).val = (q ⟨0, by decide⟩).val :=
  dot_S1000x384_S384x128_S1000x128_1_0_0_1_n_n.lhsIdx_val_of_single rfl i q
theorem rhs_0 (i : S1000x128.Idx) (q : dot_S1000x384_S384x128_S1000x128_1_0_0_1_n_n.contr.Idx) :
    (dot_S1000x384_S384x128_S1000x128_1_0_0_1_n_n.rhsIdx i q 0).val = (q ⟨0, by decide⟩).val :=
  dot_S1000x384_S384x128_S1000x128_1_0_0_1_n_n.rhsIdx_val_of_single rfl i q
theorem rhs_1 (i : S1000x128.Idx) (q : dot_S1000x384_S384x128_S1000x128_1_0_0_1_n_n.contr.Idx) :
    (dot_S1000x384_S384x128_S1000x128_1_0_0_1_n_n.rhsIdx i q 1).val = (i 1).val := by
  unfold DotDims.rhsIdx
  rw [dif_neg (show ¬(1 : Fin S384x128.rank) ∈ dot_S1000x384_S384x128_S1000x128_1_0_0_1_n_n.rhsBatch by decide), dif_pos (show (1 : Fin S384x128.rank) ∈ dot_S1000x384_S384x128_S1000x128_1_0_0_1_n_n.rhsNonContracting by decide)]
  rfl

/-- The product of a 1000 × 384 and a 384 × 128 block into the zero splat, at (p, j): the sum over the 384 features. -/
theorem mm_apply (A : FVec Ideal S1000x384 .bf16) (B : FVec Ideal S384x128 .bf16) (p : Fin 1000) (j : Fin 128) :
    matmul dot_S1000x384_S384x128_S1000x128_1_0_0_1_n_n none A B (constant (F := Ideal) S1000x128 .f32 0x00000000#32) (ix2 p j)
      = ∑ k : Fin 384, A (ix2 p k) * B (ix2 k j) := by
  simp only [matmul]
  rw [Ideal.matmul_constant_zero_apply, ← Equiv.sum_comp (contrEquiv1 dot_S1000x384_S384x128_S1000x128_1_0_0_1_n_n 384 rfl rfl).symm]
  refine Finset.sum_congr rfl fun k _ => ?_
  have hk := contrEquiv1_symm_val dot_S1000x384_S384x128_S1000x128_1_0_0_1_n_n 384 rfl rfl k
  have el : dot_S1000x384_S384x128_S1000x128_1_0_0_1_n_n.lhsIdx (ix2 p j) ((contrEquiv1 dot_S1000x384_S384x128_S1000x128_1_0_0_1_n_n 384 rfl rfl).symm k) = ix2 p k := funext fun a => Fin.ext (by
    match a with
    | ⟨0, _⟩ => exact lhs_0 _ _
    | ⟨1, _⟩ => exact (lhs_1 _ _).trans hk)
  have er : dot_S1000x384_S384x128_S1000x128_1_0_0_1_n_n.rhsIdx (ix2 p j) ((contrEquiv1 dot_S1000x384_S384x128_S1000x128_1_0_0_1_n_n 384 rfl rfl).symm k) = ix2 k j := funext fun a => Fin.ext (by
    match a with
    | ⟨0, _⟩ => exact (rhs_0 _ _).trans hk
    | ⟨1, _⟩ => exact rhs_1 _ _)
  rw [el, er]

/-- The affine image of the block X: X · W into the zero splat, plus the bias row over every row. -/
def pre (X : Vec Ideal S1000x384 .f32) (W : Vec Ideal S384x128 .f32) (b : Vec Ideal S1x128 .f32) : FVec Ideal S1000x128 .f32 :=
  addf
    (matmul dot_S1000x384_S384x128_S1000x128_1_0_0_1_n_n none
      (truncf .bf16 (shapeCast S1000x384 X Gen.shapeCasts_S1000x384_S1000x384) Gen.bitsLt_bf16_f32)
      (truncf .bf16 (shapeCast S384x128 W Gen.shapeCasts_S384x128_S384x128) Gen.bitsLt_bf16_f32)
      (constant (F := Ideal) S1000x128 .f32 0x00000000#32))
    (broadcastTo S1000x128 (shapeCast S1x128 b Gen.shapeCasts_S1x128_S1x128) Gen.broadcasts_S1x128_S1000x128)

/-- Its entry (p, j) is channel j of the affine image of row p. -/
theorem pre_apply (X : Vec Ideal S1000x384 .f32) (W : Vec Ideal S384x128 .f32) (b : Vec Ideal S1x128 .f32) (p : Fin 1000) (j : Fin 128) :
    pre X W b (ix2 p j)
      = RowNorm.lin (fun k => X (ix2 p k)) (fun k j => W (ix2 k j)) (fun j => b (ix2 0 j)) j := by
  show matmul dot_S1000x384_S384x128_S1000x128_1_0_0_1_n_n none
        (truncf .bf16 (shapeCast S1000x384 X Gen.shapeCasts_S1000x384_S1000x384) Gen.bitsLt_bf16_f32)
        (truncf .bf16 (shapeCast S384x128 W Gen.shapeCasts_S384x128_S384x128) Gen.bitsLt_bf16_f32)
        (constant (F := Ideal) S1000x128 .f32 0x00000000#32) (ix2 p j)
      + broadcastTo S1000x128 (shapeCast S1x128 b Gen.shapeCasts_S1x128_S1x128) Gen.broadcasts_S1x128_S1000x128 (ix2 p j) = _
  rw [mm_apply, rowBcast_apply, shapeCast_self, shapeCast_self]
  rfl

/-! ## The payload -/

/-- The body's stored value is the tail of the affine image. -/
theorem pay_eq (X : Vec Ideal S1000x384 .f32) (W : Vec Ideal S384x128 .f32) (b γ β : Vec Ideal S1x128 .f32) :
    Gen.k0_pay1 (F := Ideal) X W b γ β = tail (pre X W b) γ β := rfl

/-- The body's stored value at (p, q): row p of X through the affine map, normalised over its 128 channels,
    scaled by γ, shifted by β, clipped below at zero, at channel q. -/
theorem pay_apply (X : Vec Ideal S1000x384 .f32) (W : Vec Ideal S384x128 .f32) (b γ β : Vec Ideal S1x128 .f32) (p : Fin 1000) (q : Fin 128) :
    Gen.k0_pay1 (F := Ideal) X W b γ β (ix2 p q)
      = RowNorm.normRelu (RowNorm.lin (fun k => X (ix2 p k)) (fun k j => W (ix2 k j)) (fun j => b (ix2 0 j))) (fun j => γ (ix2 0 j)) (fun j => β (ix2 0 j)) q := by
  rw [pay_eq, tail_apply]
  exact congrArg (fun x => RowNorm.normRelu x (fun j => γ (ix2 0 j)) (fun j => β (ix2 0 j)) q)
    (funext fun j => pre_apply X W b p j)

end Cert.KernelIdeal.PayRow

end
-- ==== Proof.KernelIdealValue.lean ====
/- The result array of the idealized kernel as ONE function of the arrays the region stages.

   Point `t` of the ten-point grid stages feature rows `1000 t … 1000 t + 999`, the whole weight and
   the three single rows, and writes back rows `1000 t … 1000 t + 999` of the result. Entry
   `(p, q)` of what it writes is the row function (affine map, layer normalisation, scale, shift,
   clip at zero) of feature row `1000 t + p` at channel `q`. The ten row blocks tile the result, so
   the result array ends holding that row function of every feature row. -/
import proofs.«173132_j32899449488056_1_alg».proof.Proof.KernelIdealRegion
import proofs.«173132_j32899449488056_1_alg».proof.Proof.PayRow
import proofs.«173132_j32899449488056_1_alg».proof.Proof.RowNorm
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Region
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The five staged arrays as the region finds them, under their literal types. -/
abbrev feats (c : Dev nD) : S10000x384.Idx → EReal := V m c main_v42
abbrev wgt (c : Dev nD) : S384x128.Idx → EReal := V m c main_v43
abbrev bias (c : Dev nD) : S1x128.Idx → EReal := V m c main_v44
abbrev gam (c : Dev nD) : S1x128.Idx → EReal := V m c main_v45
abbrev bet (c : Dev nD) : S1x128.Idx → EReal := V m c main_v46

/-- The row function of feature row `r`, at channel `q`. -/
def rowOf (c : Dev nD) (r : Fin 10000) (q : Fin 128) : EReal :=
  RowNorm.normRelu
    (RowNorm.lin (fun k => feats m c (ix2 r k)) (fun k j => wgt m c (ix2 k j)) (fun j => bias m c (ix2 (0 : Fin 1) j)))
    (fun j => gam m c (ix2 (0 : Fin 1) j)) (fun j => bet m c (ix2 (0 : Fin 1) j)) q

/-- The whole result: entry `(r, q)` is the row function of feature row `r` at channel `q`. -/
def result (c : Dev nD) : S10000x128.Idx → EReal :=
  fun i => rowOf m c ⟨(i 0).val, (i 0).isLt⟩ ⟨(i 1).val, (i 1).isLt⟩

theorem hz : (![0, 0] : Fin 2 → Nat) = fun _ => 0 := funext fun a => by fin_cases a <;> rfl

/-- The block indices over the grid: the feature rows and the result move with the point along
    the rows; the weight and the three single rows stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the feature block at point `t` is feature row `1000 t + p`. -/
theorem featBlock_apply (c : Dev nD) (t : Fin cfg0.N) (p : Fin 1000) (k : Fin 384) (r : Fin 10000) (hr : r.val = 1000 * t.val + p.val) :
    (iblk m c 0 t : S1000x384.Idx → EReal) (ix2 p k) = feats m c (ix2 r k) := by
  obtain ⟨e00, e01, -⟩ := idx_facts t
  unfold iblk
  rw [View.read_apply]
  show V m c main_v42 _ = V m c main_v42 _
  congr 1
  funext a
  apply Fin.ext
  match a with
  | ⟨0, _⟩ => show win0_0.index t (0 : Fin 2) * 1000 + 1 * p.val = r.val; rw [e00, hr]; omega
  | ⟨1, _⟩ => show win0_0.index t (1 : Fin 2) * 384 + 1 * k.val = k.val; rw [e01]; omega

/-- The weight block at any point is the whole weight. -/
theorem wgtBlock_apply (c : Dev nD) (t : Fin cfg0.N) (k : Fin 384) (j : Fin 128) :
    (iblk m c 1 t : S384x128.Idx → EReal) (ix2 k j) = wgt m c (ix2 k j) := by
  obtain ⟨-, -, e10, e11, -⟩ := idx_facts t
  unfold iblk
  rw [View.read_apply]
  show V m c main_v43 _ = V m c main_v43 _
  congr 1
  funext a
  apply Fin.ext
  match a with
  | ⟨0, _⟩ => show win0_1.index t (0 : Fin 2) * 384 + 1 * k.val = k.val; rw [e10]; omega
  | ⟨1, _⟩ => show win0_1.index t (1 : Fin 2) * 128 + 1 * j.val = j.val; rw [e11]; omega

/-- Each single-row block at any point is the whole row. -/
theorem biasBlock_apply (c : Dev nD) (t : Fin cfg0.N) (j : Fin 128) :
    (iblk m c 2 t : S1x128.Idx → EReal) (ix2 (0 : Fin 1) j) = bias m c (ix2 (0 : Fin 1) j) := by
  obtain ⟨-, -, -, -, e20, e21, -⟩ := idx_facts t
  unfold iblk
  rw [View.read_apply]
  show V m c main_v44 _ = V m c main_v44 _
  congr 1
  funext a
  apply Fin.ext
  match a with
  | ⟨0, _⟩ => show win0_2.index t (0 : Fin 2) * 1 + 1 * 0 = 0; rw [e20]
  | ⟨1, _⟩ => show win0_2.index t (1 : Fin 2) * 128 + 1 * j.val = j.val; rw [e21]; omega

theorem gamBlock_apply (c : Dev nD) (t : Fin cfg0.N) (j : Fin 128) :
    (iblk m c 3 t : S1x128.Idx → EReal) (ix2 (0 : Fin 1) j) = gam m c (ix2 (0 : Fin 1) j) := by
  obtain ⟨-, -, -, -, -, -, e30, e31, -⟩ := idx_facts t
  unfold iblk
  rw [View.read_apply]
  show V m c main_v45 _ = V m c main_v45 _
  congr 1
  funext a
  apply Fin.ext
  match a with
  | ⟨0, _⟩ => show win0_3.index t (0 : Fin 2) * 1 + 1 * 0 = 0; rw [e30]
  | ⟨1, _⟩ => show win0_3.index t (1 : Fin 2) * 128 + 1 * j.val = j.val; rw [e31]; omega

theorem betBlock_apply (c : Dev nD) (t : Fin cfg0.N) (j : Fin 128) :
    (iblk m c 4 t : S1x128.Idx → EReal) (ix2 (0 : Fin 1) j) = bet m c (ix2 (0 : Fin 1) j) := by
  obtain ⟨-, -, -, -, -, -, -, -, e40, e41, -⟩ := idx_facts t
  unfold iblk
  rw [View.read_apply]
  show V m c main_v46 _ = V m c main_v46 _
  congr 1
  funext a
  apply Fin.ext
  match a with
  | ⟨0, _⟩ => show win0_4.index t (0 : Fin 2) * 1 + 1 * 0 = 0; rw [e40]
  | ⟨1, _⟩ => show win0_4.index t (1 : Fin 2) * 128 + 1 * j.val = j.val; rw [e41]; omega

/-- The row function depends on its five arguments only through their values. -/
theorem rowFn_congr {f f' : Fin 384 → EReal} {W W' : Fin 384 → Fin 128 → EReal} {b b' g g' s s' : Fin 128 → EReal} {q q' : Fin 128}
    (hf : f = f') (hW : W = W') (hb : b = b') (hg : g = g') (hs : s = s') (hq : q = q') :
    RowNorm.normRelu (RowNorm.lin f W b) g s q = RowNorm.normRelu (RowNorm.lin f' W' b') g' s' q' := by
  subst hf hW hb hg hs hq; rfl

/-- What point `t` writes back is block `t` of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after_5]
  unfold outBlock
  rw [View.canon_unit_zero hz]
  simp only [View.ld_unit_zero (S := S1000x384) hz, View.ld_unit_zero (S := S384x128) hz, View.ld_unit_zero (S := S1x128) hz]
  obtain ⟨-, -, -, -, -, -, -, -, -, -, e50, e51⟩ := idx_facts t
  funext y
  have hy0 : (y 0).val < 1000 := (y 0).isLt
  have hy1 : (y 1).val < 128 := (y 1).isLt
  have hN : t.val < 10 := Nat.lt_of_lt_of_eq t.isLt N_0
  show k0_pay1 (F := Ideal) (iblk m c 0 t) (iblk m c 1 t) (iblk m c 2 t) (iblk m c 3 t) (iblk m c 4 t) (ix2 (⟨(y 0).val, hy0⟩ : Fin 1000) (⟨(y 1).val, hy1⟩ : Fin 128))
      = result m c (((cfg0.win 5).blk t).view.emb y)
  refine (Cert.KernelIdeal.PayRow.pay_apply (iblk m c 0 t) (iblk m c 1 t) (iblk m c 2 t) (iblk m c 3 t) (iblk m c 4 t) ⟨(y 0).val, hy0⟩ ⟨(y 1).val, hy1⟩).trans ?_
  unfold result rowOf
  have h0 : ((((cfg0.win 5).blk t).view.emb y) 0).val = 1000 * t.val + (y 0).val := by
    show win0_5.index t (0 : Fin 2) * 1000 + 1 * (y 0).val = _; rw [e50]; omega
  have h1 : ((((cfg0.win 5).blk t).view.emb y) 1).val = (y 1).val := by
    show win0_5.index t (1 : Fin 2) * 128 + 1 * (y 1).val = _; rw [e51]; omega
  refine rowFn_congr (funext fun k => ?_) (funext fun k => funext fun j => ?_) (funext fun j => ?_) (funext fun j => ?_) (funext fun j => ?_) (Fin.ext h1.symm)
  · exact featBlock_apply m c t ⟨(y 0).val, hy0⟩ k _ h0
  · exact wgtBlock_apply m c t k j
  · exact biasBlock_apply m c t j
  · exact gamBlock_apply m c t j
  · exact betBlock_apply m c t j

/-- An index of the result is in point `t`'s block iff each coordinate is in the block's range. -/
theorem mem_blk (t : Fin cfg0.N) (i : S10000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v47).slice (win0_5.rect t)).set ↔ _
  rw [View.set_slice_whole, Rect.mem_set_unit]
  exact Iff.rfl

/-- Every entry of the result is in the block of the point its row falls in. -/
theorem cover (i : S10000x128.Idx) : ∃ t : Fin cfg0.N, (cfg0.win 5).flush t = true ∧ i ∈ ((cfg0.win 5).blk t).view.set := by
  have h0 : (i 0).val < 10000 := (i 0).isLt
  have h1 : (i 1).val < 128 := (i 1).isLt
  have hN : cfg0.N = 10 := N_0
  let t : Fin cfg0.N := ⟨(i 0).val / 1000, by rw [hN]; omega⟩
  obtain ⟨-, -, -, -, -, -, -, -, -, -, e50, e51⟩ := idx_facts t
  refine ⟨t, flush0_5 t, ?_⟩
  rw [mem_blk]
  intro a
  have ht : t.val = (i 0).val / 1000 := rfl
  match a with
  | ⟨0, _⟩ => show win0_5.index t (0 : Fin 2) * 1000 ≤ (i 0).val ∧ (i 0).val < win0_5.index t (0 : Fin 2) * 1000 + 1000; rw [e50, ht]; omega
  | ⟨1, _⟩ => show win0_5.index t (1 : Fin 2) * 128 ≤ (i 1).val ∧ (i 1).val < win0_5.index t (1 : Fin 2) * 128 + 128; rw [e51]; omega

/-- The result array after the run. -/
theorem final (c : Dev nD) : (dats m 0 c).arrAt 5 cfg0.N = result m c :=
  (dats m 0 c).arrAt_eq_of_cover 5 (result m c) (fun t _ => flushed_eq m c t) cover

/-- The run with the result named and the arguments unchanged. -/
theorem run : θ_run defs (onTc (τ := τ) (main (F := Ideal))) ⟨m, fun _ => 0, ρ⟩ fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 5).trans (final m c),
      ((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c)⟩)
    (run_main m ρ)

end Cert.KernelIdeal.Blocks

end
-- ==== Proof.KernelIdealHost.lean ====
/- What the host operations before the region leave in the five arrays the pipeline stages, as
   functions of the argument arrays, at the ideal values.

   The joined feature matrix (the input features beside their one-hop and two-hop propagations) is
   the very chain of operations the reference applies, so each of its three column blocks is named
   by the reference's own stage and never opened. The weight is the argument transposed; the bias,
   scale and shift are the 128-vectors laid out as single rows.

   The host operations are read in two steps: the last five (the joining of the three blocks, the
   transpose and the three re-layouts) over WHATEVER the first fifty-four leave, and then the three
   buffers the joining reads, over the first fifty-four. -/
import proofs.«173132_j32899449488056_1_alg».proof.Proof.KernelIdealRegion
import proofs.«173132_j32899449488056_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.HostSide

open Cert.KernelIdeal Cert.KernelIdeal.Gen Cert.KernelIdeal.Region
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- Running two lines of host operations one after the other is running their concatenation. -/
theorem after_append {Val : EltTy → Type} (l₁ l₂ : List (HloOp τ sig Val)) (F : Valuation τ sig Val) :
    after (l₁ ++ l₂) F = after l₂ (after l₁ F) := by
  induction l₁ generalizing F with
  | nil => rfl
  | cons op l ih => simp only [List.cons_append, after_cons, ih]

/-- The operations up to the second propagated block (everything before the joining). -/
abbrev headOps : List (HloOp τ sig (Elt Ideal)) := hostOps0 ++ (hostOps0_1 ++ (hostOps0_2 (F := Ideal)).take 44)
/-- The joining of the three blocks, the transpose, and the three re-layouts. -/
abbrev tailOps : List (HloOp τ sig (Elt Ideal)) := (hostOps0_2 (F := Ideal)).drop 44

/-- What core `c`'s buffers hold before the joining. -/
def W (c : Dev nD) : Valuation τ sig (Elt Ideal) := after headOps (fun b => m (c, b))

theorem V_eq_tail (c : Dev nD) (b : Ref sig .tc) : V m c b = after tailOps (W m c) (Proc.devRef .tc b) := by
  show after (List.flatten (hostStretches (F := Ideal))) (fun b => m (c, b)) (Proc.devRef .tc b) = _
  unfold W
  rw [← after_append]
  congr 1

/-- The last five operations, spelled out. -/
theorem tailOps_eq : tailOps =
    [ StableHlo.nary ![main_arg0, main_v24, main_v41] main_v42 (fun u => concatenate S10000x384 1 [⟨S10000x128, u 0⟩, ⟨S10000x128, u 1⟩, ⟨S10000x128, u 2⟩] concatenates_S10000x128_S10000x128_S10000x128_S10000x384_d1),
      StableHlo.unary main_arg2 main_v43 ((transpose S384x128 [1, 0] · transposes_S128x384_S384x128_1_0) : (⟨S128x384, .f32⟩ : BufTy).Contents (Elt Ideal) → (⟨S384x128, .f32⟩ : BufTy).Contents (Elt Ideal)),
      StableHlo.reshape main_arg3 main_v44 rfl shapeCasts_S128_S1x128,
      StableHlo.reshape main_arg4 main_v45 rfl shapeCasts_S128_S1x128,
      StableHlo.reshape main_arg5 main_v46 rfl shapeCasts_S128_S1x128 ] := rfl

/-- The joined features are the three blocks, as the first fifty-four operations leave them, side by side. -/
theorem feats_tail (c : Dev nD) :
    (V m c main_v42 : S10000x384.Idx → EReal)
      = concatenate S10000x384 1 [⟨S10000x128, W m c (Proc.devRef .tc main_arg0)⟩, ⟨S10000x128, W m c (Proc.devRef .tc main_v24)⟩, ⟨S10000x128, W m c (Proc.devRef .tc main_v41)⟩]
          concatenates_S10000x128_S10000x128_S10000x128_S10000x384_d1 := by
  rw [V_eq_tail, tailOps_eq]
  generalize W m c = F
  after_results
  rfl

theorem wgt_tail (c : Dev nD) :
    (V m c main_v43 : S384x128.Idx → EReal)
      = transpose S384x128 [1, 0] (W m c (Proc.devRef .tc main_arg2) : S128x384.Idx → EReal) transposes_S128x384_S384x128_1_0 := by
  rw [V_eq_tail, tailOps_eq]
  generalize W m c = F
  after_results

theorem bias_tail (c : Dev nD) :
    (V m c main_v44 : S1x128.Idx → EReal) = shapeCast S1x128 (W m c (Proc.devRef .tc main_arg3) : S128.Idx → EReal) shapeCasts_S128_S1x128 := by
  rw [V_eq_tail, tailOps_eq]
  generalize W m c = F
  after_results
  rfl

theorem gamma_tail (c : Dev nD) :
    (V m c main_v45 : S1x128.Idx → EReal) = shapeCast S1x128 (W m c (Proc.devRef .tc main_arg4) : S128.Idx → EReal) shapeCasts_S128_S1x128 := by
  rw [V_eq_tail, tailOps_eq]
  generalize W m c = F
  after_results
  rfl

theorem beta_tail (c : Dev nD) :
    (V m c main_v46 : S1x128.Idx → EReal) = shapeCast S1x128 (W m c (Proc.devRef .tc main_arg5) : S128.Idx → EReal) shapeCasts_S128_S1x128 := by
  rw [V_eq_tail, tailOps_eq]
  generalize W m c = F
  after_results
  rfl

/-- The last five operations write no argument, so an argument before the joining is the argument
    the region finds, which is the argument as launched. -/
theorem W_arg (c : Dev nD) (b : Ref sig .tc) (hb : b ≠ main_v42 ∧ b ≠ main_v43 ∧ b ≠ main_v44 ∧ b ≠ main_v45 ∧ b ≠ main_v46) :
    W m c (Proc.devRef .tc b) = V m c b := by
  rw [V_eq_tail, tailOps_eq]
  generalize W m c = F
  obtain ⟨h2, h3, h4, h5, h6⟩ := hb
  symm
  refine StableHlo.after_of_forall_not_mem _ _ (List.forall_iff_forall_mem.mp ?_)
  simp only [List.Forall, StableHlo.unary_writes, StableHlo.reshape_writes, StableHlo.nary_writes, Finset.mem_singleton]
  exact ⟨StableHlo.devRef_ne_of_ne h2, StableHlo.devRef_ne_of_ne h3, StableHlo.devRef_ne_of_ne h4, StableHlo.devRef_ne_of_ne h5, StableHlo.devRef_ne_of_ne h6⟩

theorem W_arg0 (c : Dev nD) : W m c (Proc.devRef .tc main_arg0) = m ((c.tc : Thread nD τ).loc main_arg0) :=
  (W_arg m c main_arg0 (by decide)).trans (V_arg0 m c)
theorem W_arg2 (c : Dev nD) : W m c (Proc.devRef .tc main_arg2) = m ((c.tc : Thread nD τ).loc main_arg2) :=
  (W_arg m c main_arg2 (by decide)).trans (V_arg2 m c)
theorem W_arg3 (c : Dev nD) : W m c (Proc.devRef .tc main_arg3) = m ((c.tc : Thread nD τ).loc main_arg3) :=
  (W_arg m c main_arg3 (by decide)).trans (V_arg3 m c)
theorem W_arg4 (c : Dev nD) : W m c (Proc.devRef .tc main_arg4) = m ((c.tc : Thread nD τ).loc main_arg4) :=
  (W_arg m c main_arg4 (by decide)).trans (V_arg4 m c)
theorem W_arg5 (c : Dev nD) : W m c (Proc.devRef .tc main_arg5) = m ((c.tc : Thread nD τ).loc main_arg5) :=
  (W_arg m c main_arg5 (by decide)).trans (V_arg5 m c)

/-- The staged weight at `(k, j)` is the weight argument at `(j, k)`. -/
theorem wgt_apply (c : Dev nD) (k : Fin 384) (j : Fin 128) :
    (V m c main_v43 : S384x128.Idx → EReal) (ix2 k j) = (m ((c.tc : Thread nD τ).loc main_arg2) : S128x384.Idx → EReal) (ix2 j k) := by
  rw [wgt_tail, W_arg2]
  exact transpose_apply [1, 0] _ transposes_S128x384_S384x128_1_0 (ix2 k j) (ix2 j k) (fun b => match b with
    | ⟨0, _⟩ => rfl
    | ⟨1, _⟩ => rfl)

/-- A 128-vector laid out as one row, read at column `j`, is the vector at `j`. -/
theorem row_apply (x : S128.Idx → EReal) (j : Fin 128) :
    shapeCast S1x128 x shapeCasts_S128_S1x128 (ix2 (0 : Fin 1) j) = x (ix1 j) :=
  (shapeCast_addUnit_apply ![128] x shapeCasts_S128_S1x128 (ix2 (0 : Fin 1) j)).trans
    (congrArg x (funext fun a => by match a with | ⟨0, _⟩ => rfl))

theorem bias_apply (c : Dev nD) (j : Fin 128) :
    (V m c main_v44 : S1x128.Idx → EReal) (ix2 (0 : Fin 1) j) = (m ((c.tc : Thread nD τ).loc main_arg3) : S128.Idx → EReal) (ix1 j) := by
  rw [bias_tail, W_arg3]; exact row_apply _ j
theorem gamma_apply (c : Dev nD) (j : Fin 128) :
    (V m c main_v45 : S1x128.Idx → EReal) (ix2 (0 : Fin 1) j) = (m ((c.tc : Thread nD τ).loc main_arg4) : S128.Idx → EReal) (ix1 j) := by
  rw [gamma_tail, W_arg4]; exact row_apply _ j
theorem beta_apply (c : Dev nD) (j : Fin 128) :
    (V m c main_v46 : S1x128.Idx → EReal) (ix2 (0 : Fin 1) j) = (m ((c.tc : Thread nD τ).loc main_arg5) : S128.Idx → EReal) (ix1 j) := by
  rw [beta_tail, W_arg5]; exact row_apply _ j

end Cert.KernelIdeal.HostSide

end
-- ==== Proof.KernelIdealFeats.lean ====
/- The three column blocks of the joined feature matrix, as the host operations before the joining
   leave them, are the reference's stages of the same arguments: the input features themselves, their
   one-hop propagation (scale rows by the inverse square root of the clipped in-degree, gather along
   the source index, weight by the edge weight, scatter-add along the target index, scale again) and
   the same propagation applied once more. Both programs spell these as the same operations in the
   same order.

   The fifty-four operations are read in five steps, each over WHATEVER the step before leaves:
   the in-degree; its clip below at one; the inverse square root as a column; the first hop; the
   second hop. A step's result is the reference's stage of the same name once the buffers it reads
   are the reference's stages, and the steps leave the arguments and the earlier results alone. -/
import proofs.«173132_j32899449488056_1_alg».proof.Proof.KernelIdealHost

set_option maxRecDepth 16384

noncomputable section

namespace Cert.KernelIdeal.HostSide

open Cert.KernelIdeal Cert.KernelIdeal.Gen Cert.KernelIdeal.Region
open Idealize.ShloMosaic Idealize.ShloMosaic.TcCoe Idealize.SL.Sem Idealize.ShloMosaic.StableHlo
open Idealize.ShloMosaic.ValueIdx

/-- The five steps. -/
abbrev degOps : List (HloOp τ sig (Elt Ideal)) := hostOps0
abbrev clipOps : List (HloOp τ sig (Elt Ideal)) := hostOps0_1
abbrev normOps : List (HloOp τ sig (Elt Ideal)) := (hostOps0_2 (F := Ideal)).take 4
abbrev hop1Ops : List (HloOp τ sig (Elt Ideal)) := ((hostOps0_2 (F := Ideal)).drop 4).take 20
abbrev hop2Ops : List (HloOp τ sig (Elt Ideal)) := ((hostOps0_2 (F := Ideal)).drop 24).take 20

theorem headOps_eq : headOps = degOps ++ (clipOps ++ (normOps ++ (hop1Ops ++ hop2Ops))) := rfl

/-- Unfold a step's operations to the literal list and read a buffer after them. -/
local macro "read_step" : tactic => `(tactic| (
  simp only [degOps, clipOps, normOps, hop1Ops, hop2Ops, hostOps0, hostOps0_1, hostOps0_2, List.drop_succ_cons, List.drop_zero,
    List.take_succ_cons, List.take_zero]
  after_results_simp))

section Steps

variable (G : Valuation τ sig (Elt Ideal))
variable (x0 : (⟨Cert.ReferenceIdeal.S10000x128, .f32⟩ : BufTy).Contents (Elt Ideal))
variable (x1 : (⟨Cert.ReferenceIdeal.S640000, .f32⟩ : BufTy).Contents (Elt Ideal))
variable (x6 x7 : (⟨Cert.ReferenceIdeal.S640000, .i32⟩ : BufTy).Contents (Elt Ideal))

/-- The four arguments the joined features depend on, in a valuation. -/
def Args : Prop :=
  G (Proc.devRef .tc main_arg0) = x0 ∧ G (Proc.devRef .tc main_arg1) = x1 ∧ G (Proc.devRef .tc main_arg6) = x6 ∧ G (Proc.devRef .tc main_arg7) = x7

set_option maxHeartbeats 2000000 in
theorem step_deg (h : Args G x0 x1 x6 x7) :
    Args (after degOps G) x0 x1 x6 x7
      ∧ after degOps G (Proc.devRef .tc main_v3) = Cert.ReferenceIdeal.Read.val_main_v3 (F := Ideal) x7
      ∧ after degOps G (Proc.devRef .tc main_cst_1) = Cert.ReferenceIdeal.Read.val_main_cst_1 (F := Ideal) := by
  obtain ⟨h0, h1, h6, h7⟩ := h
  refine ⟨⟨?_, ?_, ?_, ?_⟩, ?_, ?_⟩
  · read_step; exact h0
  · read_step; exact h1
  · read_step; exact h6
  · read_step; exact h7
  · read_step; rw [h7]; rfl
  · read_step; rfl

set_option maxHeartbeats 2000000 in
theorem step_clip (h : Args G x0 x1 x6 x7)
    (h3 : G (Proc.devRef .tc main_v3) = Cert.ReferenceIdeal.Read.val_main_v3 (F := Ideal) x7)
    (hc : G (Proc.devRef .tc main_cst_1) = Cert.ReferenceIdeal.Read.val_main_cst_1 (F := Ideal)) :
    Args (after clipOps G) x0 x1 x6 x7
      ∧ after clipOps G (Proc.devRef .tc main_v4) = Cert.ReferenceIdeal.Read.val_main_v4 (F := Ideal) x7 := by
  obtain ⟨h0, h1, h6, h7⟩ := h
  refine ⟨⟨?_, ?_, ?_, ?_⟩, ?_⟩
  · read_step; exact h0
  · read_step; exact h1
  · read_step; exact h6
  · read_step; exact h7
  · read_step; rw [h3, hc]; rfl

set_option maxHeartbeats 2000000 in
theorem step_norm (h : Args G x0 x1 x6 x7)
    (h4 : G (Proc.devRef .tc main_v4) = Cert.ReferenceIdeal.Read.val_main_v4 (F := Ideal) x7) :
    Args (after normOps G) x0 x1 x6 x7
      ∧ after normOps G (Proc.devRef .tc main_v7) = Cert.ReferenceIdeal.Read.val_main_v7 (F := Ideal) x7 := by
  obtain ⟨h0, h1, h6, h7⟩ := h
  refine ⟨⟨?_, ?_, ?_, ?_⟩, ?_⟩
  · read_step; exact h0
  · read_step; exact h1
  · read_step; exact h6
  · read_step; exact h7
  · read_step; rw [h4]; rfl

set_option maxHeartbeats 4000000 in
theorem step_hop1 (h : Args G x0 x1 x6 x7)
    (hn : G (Proc.devRef .tc main_v7) = Cert.ReferenceIdeal.Read.val_main_v7 (F := Ideal) x7) :
    Args (after hop1Ops G) x0 x1 x6 x7
      ∧ after hop1Ops G (Proc.devRef .tc main_v7) = Cert.ReferenceIdeal.Read.val_main_v7 (F := Ideal) x7
      ∧ after hop1Ops G (Proc.devRef .tc main_v24) = Cert.ReferenceIdeal.Read.val_main_v24 (F := Ideal) x0 x1 x6 x7 := by
  obtain ⟨h0, h1, h6, h7⟩ := h
  refine ⟨⟨?_, ?_, ?_, ?_⟩, ?_, ?_⟩
  · read_step; exact h0
  · read_step; exact h1
  · read_step; exact h6
  · read_step; exact h7
  · read_step; exact hn
  · read_step; rw [h0, h1, h6, h7, hn]; rfl

set_option maxHeartbeats 4000000 in
theorem step_hop2 (h : Args G x0 x1 x6 x7)
    (hn : G (Proc.devRef .tc main_v7) = Cert.ReferenceIdeal.Read.val_main_v7 (F := Ideal) x7)
    (h24 : G (Proc.devRef .tc main_v24) = Cert.ReferenceIdeal.Read.val_main_v24 (F := Ideal) x0 x1 x6 x7) :
    after hop2Ops G (Proc.devRef .tc main_v24) = Cert.ReferenceIdeal.Read.val_main_v24 (F := Ideal) x0 x1 x6 x7
      ∧ after hop2Ops G (Proc.devRef .tc main_v41) = Cert.ReferenceIdeal.Read.val_main_v41 (F := Ideal) x0 x1 x6 x7 := by
  obtain ⟨h0, h1, h6, h7⟩ := h
  refine ⟨?_, ?_⟩
  · read_step; exact h24
  · read_step; rw [h1, h6, h7, hn, h24]; rfl

end Steps

variable (m : (ℓ : Loc nD τ sig) → Buf (Elt Ideal) ℓ)

/-- The one-hop and two-hop blocks before the joining are the reference's stages of the launch arguments. -/
theorem W_hops (c : Dev nD) :
    (W m c (Proc.devRef .tc main_v24) : S10000x128.Idx → EReal)
        = Cert.ReferenceIdeal.Read.val_main_v24 (F := Ideal) (m ((c.tc : Thread nD τ).loc main_arg0)) (m ((c.tc : Thread nD τ).loc main_arg1))
            (m ((c.tc : Thread nD τ).loc main_arg6)) (m ((c.tc : Thread nD τ).loc main_arg7))
      ∧ (W m c (Proc.devRef .tc main_v41) : S10000x128.Idx → EReal)
        = Cert.ReferenceIdeal.Read.val_main_v41 (F := Ideal) (m ((c.tc : Thread nD τ).loc main_arg0)) (m ((c.tc : Thread nD τ).loc main_arg1))
            (m ((c.tc : Thread nD τ).loc main_arg6)) (m ((c.tc : Thread nD τ).loc main_arg7)) := by
  unfold W
  rw [headOps_eq, after_append, after_append, after_append, after_append]
  generalize hG : (fun b => m (c, b) : Valuation τ sig (Elt Ideal)) = G
  have hA : Args G (m ((c.tc : Thread nD τ).loc main_arg0)) (m ((c.tc : Thread nD τ).loc main_arg1))
      (m ((c.tc : Thread nD τ).loc main_arg6)) (m ((c.tc : Thread nD τ).loc main_arg7)) := by
    subst hG; exact ⟨rfl, rfl, rfl, rfl⟩
  obtain ⟨a1, d3, dc⟩ := step_deg G _ _ _ _ hA
  obtain ⟨a2, c4⟩ := step_clip _ _ _ _ _ a1 d3 dc
  obtain ⟨a3, n7⟩ := step_norm _ _ _ _ _ a2 c4
  obtain ⟨a4, n7', p24⟩ := step_hop1 _ _ _ _ _ a3 n7
  exact step_hop2 _ _ _ _ _ a4 n7' p24

/-- The joined features the region finds are the reference's joined-features stage of the same
    four arguments (features, edge weights, source and target indices). -/
theorem feats_eq (c : Dev nD) :
    (V m c main_v42 : S10000x384.Idx → EReal)
      = Cert.ReferenceIdeal.Read.val_main_v42 (F := Ideal) (m ((c.tc : Thread nD τ).loc main_arg0)) (m ((c.tc : Thread nD τ).loc main_arg1))
          (m ((c.tc : Thread nD τ).loc main_arg6)) (m ((c.tc : Thread nD τ).loc main_arg7)) := by
  rw [feats_tail, W_arg0, (W_hops m c).1, (W_hops m c).2]
  rfl

end Cert.KernelIdeal.HostSide

end
-- ==== Proof.RefRow.lean ====
/- The reference's result at row r, channel q is the specification's row: the affine image of the
   joined feature row, normalised over its 128 channels, scaled, shifted and clipped below at zero.
   Each stage of the reference is read at an index and identified with a stage of the specification. -/
import proofs.«173132_j32899449488056_1_alg».proof.Proof.Gen.ReferenceIdeal.Read
import proofs.«173132_j32899449488056_1_alg».proof.Proof.RowNorm

noncomputable section

namespace Cert.ReferenceIdeal.RefRow

open Cert.ReferenceIdeal Cert.ReferenceIdeal.Read Idealize.ShloMosaic Idealize.ShloMosaic.ValueIdx

/-! ## The composed index maps, by coordinates -/

theorem lidx44 (r : Fin 10000) (j : Fin 128) (k : Fin 384) : lidx_main_v44 (ix2 r j) k = ix2 r k :=
  funext fun a => Fin.ext (by match a with | ⟨0, _⟩ => rfl | ⟨1, _⟩ => rfl)

theorem ridx44 (r : Fin 10000) (j : Fin 128) (k : Fin 384) :
    idx_main_v43 (ridx_main_v44 (ix2 r j) k) = ix2 j k :=
  funext fun a => Fin.ext (by match a with | ⟨0, _⟩ => rfl | ⟨1, _⟩ => rfl)

theorem idx46 (r : Fin 10000) (j : Fin 128) : idx_main_v45 (idx_main_v46 (ix2 r j)) = ix1 j :=
  funext fun a => Fin.ext (by match a with | ⟨0, _⟩ => rfl)

theorem idx67 (r : Fin 10000) (j : Fin 128) : idx_main_v66 (idx_main_v67 (ix2 r j)) = ix1 j :=
  funext fun a => Fin.ext (by match a with | ⟨0, _⟩ => rfl)

theorem idx70 (r : Fin 10000) (j : Fin 128) : idx_main_v69 (idx_main_v70 (ix2 r j)) = ix1 j :=
  funext fun a => Fin.ext (by match a with | ⟨0, _⟩ => rfl)

theorem idx48 (r : Fin 10000) (z : Fin 1) (k : Fin 128) :
    idx_main_v48 (idx_main_v49 (ix2 r z)) k = ix2 r k :=
  funext fun a => Fin.ext (by match a with | ⟨0, _⟩ => rfl | ⟨1, _⟩ => rfl)

theorem idx55 (r : Fin 10000) (z : Fin 1) (k : Fin 128) :
    idx_main_v55 (idx_main_v56 (ix2 r z)) k = ix2 r k :=
  funext fun a => Fin.ext (by match a with | ⟨0, _⟩ => rfl | ⟨1, _⟩ => rfl)

theorem idx52 (r : Fin 10000) (j : Fin 128) : idx_main_v52 (ix2 r j) = ix2 r (0 : Fin 1) :=
  funext fun a => Fin.ext (by match a with | ⟨0, _⟩ => rfl | ⟨1, _⟩ => rfl)

theorem idx59 (r : Fin 10000) (j : Fin 128) : idx_main_v59 (ix2 r j) = ix2 r (0 : Fin 1) :=
  funext fun a => Fin.ext (by match a with | ⟨0, _⟩ => rfl | ⟨1, _⟩ => rfl)

theorem idx64 (r : Fin 10000) (j : Fin 128) : idx_main_v64 (ix2 r j) = ix2 r (0 : Fin 1) :=
  funext fun a => Fin.ext (by match a with | ⟨0, _⟩ => rfl | ⟨1, _⟩ => rfl)

section
variable (x0 : (⟨S10000x128, .f32⟩ : BufTy).Contents (Elt Ideal)) (x1 : (⟨S640000, .f32⟩ : BufTy).Contents (Elt Ideal))
  (x2 : (⟨S128x384, .f32⟩ : BufTy).Contents (Elt Ideal)) (x3 x4 x5 : (⟨S128, .f32⟩ : BufTy).Contents (Elt Ideal))
  (x6 x7 : (⟨S640000, .i32⟩ : BufTy).Contents (Elt Ideal))

/-- Row r of the affine image of the joined feature matrix. -/
abbrev row (r : Fin 10000) : Fin 128 → EReal :=
  RowNorm.lin (fun k => val_main_v42 (F := Ideal) x0 x1 x6 x7 (ix2 r k)) (fun k j => x2 (ix2 j k)) (fun j => x3 (ix1 j))

/-- The affine stage at (r, j) is channel j of the row. -/
theorem v47_row (r : Fin 10000) (j : Fin 128) :
    val_main_v47 (F := Ideal) x0 x1 x2 x3 x6 x7 (ix2 r j) = row x0 x1 x2 x3 x6 x7 r j := by
  rw [val_main_v47_apply, val_main_v44_apply, val_main_v46_apply, val_main_v45_apply, idx46]
  simp only [val_main_v43_apply, lidx44, ridx44]
  rfl

/-- The mean stage at (r, ·) is the mean of the row. -/
theorem v51_row (r : Fin 10000) (z : Fin 1) :
    val_main_v51 (F := Ideal) x0 x1 x2 x3 x6 x7 (ix2 r z) = RowNorm.avg (row x0 x1 x2 x3 x6 x7 r) := by
  rw [val_main_v51_apply, val_main_v49_apply, val_main_v50_apply, val_main_cst_9_apply, val_main_v48_apply,
    val_main_cst_8_apply]
  simp only [idx48, v47_row, Ideal.ofBits_def, Ideal.hostDivf_def, Ideal.ofBits_zero_f32, zero_add]
  rfl

/-- The centred stage (first copy) at (r, j). -/
theorem v53_row (r : Fin 10000) (j : Fin 128) :
    val_main_v53 (F := Ideal) x0 x1 x2 x3 x6 x7 (ix2 r j) = RowNorm.ctr (row x0 x1 x2 x3 x6 x7 r) j := by
  rw [val_main_v53_apply, val_main_v52_apply, idx52, v47_row, v51_row]
  rfl

/-- The centred stage (second copy) at (r, j). -/
theorem v60_row (r : Fin 10000) (j : Fin 128) :
    val_main_v60 (F := Ideal) x0 x1 x2 x3 x6 x7 (ix2 r j) = RowNorm.ctr (row x0 x1 x2 x3 x6 x7 r) j := by
  rw [val_main_v60_apply, val_main_v59_apply, idx59, v47_row, v51_row]
  rfl

/-- The variance stage at (r, ·) is the mean of the squared deviations. -/
theorem v58_row (r : Fin 10000) (z : Fin 1) :
    val_main_v58 (F := Ideal) x0 x1 x2 x3 x6 x7 (ix2 r z)
      = RowNorm.avg (fun j => RowNorm.ctr (row x0 x1 x2 x3 x6 x7 r) j * RowNorm.ctr (row x0 x1 x2 x3 x6 x7 r) j) := by
  rw [val_main_v58_apply, val_main_v56_apply, val_main_v57_apply, val_main_cst_11_apply, val_main_v55_apply,
    val_main_cst_10_apply]
  simp only [idx55, val_main_v54_apply, v53_row, Ideal.ofBits_def, Ideal.hostDivf_def, Ideal.mulf_def,
    Ideal.ofBits_zero_f32, zero_add]
  rfl

/-- The reciprocal-deviation stage at (r, ·). -/
theorem v63_row (r : Fin 10000) (z : Fin 1) :
    val_main_v63 (F := Ideal) x0 x1 x2 x3 x6 x7 (ix2 r z) = RowNorm.istd (row x0 x1 x2 x3 x6 x7 r) := by
  rw [val_main_v63_apply, val_main_v62_apply, val_main_v61_apply, val_main_cst_12_apply, v58_row]
  rfl

/-- The reference's result at (r, q) is channel q of the normalised, scaled, shifted, clipped row. -/
theorem ref_apply (r : Fin 10000) (q : Fin 128) :
    val_main_v72 (F := Ideal) x0 x1 x2 x3 x4 x5 x6 x7 (ix2 r q)
      = RowNorm.normRelu (RowNorm.lin (fun k => val_main_v42 (F := Ideal) x0 x1 x6 x7 (ix2 r k)) (fun k j => x2 (ix2 j k)) (fun j => x3 (ix1 j))) (fun j => x4 (ix1 j)) (fun j => x5 (ix1 j)) q := by
  rw [val_main_v72_apply, val_main_call1_v0_apply, val_main_call1_cst_apply, val_main_v71_apply, val_main_v70_apply,
    val_main_v69_apply, idx70, val_main_v68_apply, val_main_v67_apply, val_main_v66_apply, idx67, val_main_v65_apply,
    val_main_v64_apply, idx64, v60_row, v63_row]
  simp only [Ideal.ofBits_def, Ideal.ofBits_zero_f32]
  rfl

end

end Cert.ReferenceIdeal.RefRow

end
-- ==== Proof.Bridge.lean ====
/- The two idealized programs compute the same array.

   Both apply the same host operations to the arguments to form the joined feature matrix; the
   reference then applies, to every row, the affine map, the layer normalisation, the scale and
   shift and the clip at zero as whole-array operations, and the kernel applies them block by
   block. Row by row both are the one row function of the same feature row, the same transposed
   weight and the same three 128-vectors. -/
import proofs.«173132_j32899449488056_1_alg».proof.Proof.KernelIdealValue
import proofs.«173132_j32899449488056_1_alg».proof.Proof.KernelIdealHost
import proofs.«173132_j32899449488056_1_alg».proof.Proof.KernelIdealFeats
import proofs.«173132_j32899449488056_1_alg».proof.Proof.RefRow

set_option maxRecDepth 16384

noncomputable section

namespace Cert.Bridge

open Idealize.ShloMosaic Idealize.ShloMosaic.TcCoe Idealize.SL.Sem
open Idealize.ShloMosaic.ValueIdx

/-- The reference's result stage of the kernel's own argument arrays is the kernel's result array. -/
theorem ref_eq_kernel (m : (ℓ : Loc Cert.KernelIdeal.nD Cert.KernelIdeal.τ Cert.KernelIdeal.sig) → Buf (Elt Ideal) ℓ) (c : Dev Cert.KernelIdeal.nD) :
    Cert.ReferenceIdeal.Read.val_main_v72 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Blocks.result m c := by
  funext i
  obtain ⟨r, q, rfl⟩ : ∃ (r : Fin 10000) (q : Fin 128), i = ix2 r q := ⟨i 0, i 1, eq_ix2 i⟩
  refine (Cert.ReferenceIdeal.RefRow.ref_apply _ _ _ _ _ _ _ _ r q).trans ?_
  unfold Cert.KernelIdeal.Blocks.result Cert.KernelIdeal.Blocks.rowOf
  refine Cert.KernelIdeal.Blocks.rowFn_congr (funext fun k => ?_) (funext fun k => funext fun j => ?_) (funext fun j => ?_) (funext fun j => ?_) (funext fun j => ?_) rfl
  · show _ = Cert.KernelIdeal.Region.V m c Cert.KernelIdeal.main_v42 (ix2 r k)
    rw [Cert.KernelIdeal.HostSide.feats_eq m c]
  · exact (Cert.KernelIdeal.HostSide.wgt_apply m c k j).symm
  · exact (Cert.KernelIdeal.HostSide.bias_apply m c j).symm
  · exact (Cert.KernelIdeal.HostSide.gamma_apply m c j).symm
  · exact (Cert.KernelIdeal.HostSide.beta_apply m c j).symm

end Cert.Bridge

end
-- ==== Proof.lean ====
/- The certificate's five claims.

   The word-level kernel and its idealization share one frame argument: three stretches of host
   operations that write no argument, then one pipelined region whose body reads five staged
   blocks and overwrites its output block (module KernelRegion / KernelIdealRegion, the same text
   at either float instance). The reference is host operations only: its frame is its run with
   the result dropped. The ideal pass rewrote nothing, so `preserves` has nothing to state.

   Equivalence over the extended reals: the kernel's result array is, row by row, the row function
   (affine map 384 → 128, layer normalisation over the 128 channels, scale, shift, clip at zero)
   of the joined feature matrix; the reference's result is the same row function of the same
   matrix, which both programs build by the same host operations. No law of the extended reals
   beyond `0 + x = x` is needed, so the finiteness precondition is never opened. -/
import proofs.«173132_j32899449488056_1_alg».proof.Defs
import proofs.«173132_j32899449488056_1_alg».proof.Proof.Gen.Kernel
import proofs.«173132_j32899449488056_1_alg».proof.Proof.Gen.Kernel.Skeleton
import proofs.«173132_j32899449488056_1_alg».proof.Proof.Gen.Kernel.Launch
import proofs.«173132_j32899449488056_1_alg».proof.Proof.Gen.Kernel.Points
import proofs.«173132_j32899449488056_1_alg».proof.Proof.Gen.KernelIdeal
import proofs.«173132_j32899449488056_1_alg».proof.Proof.Gen.KernelIdeal.Skeleton
import proofs.«173132_j32899449488056_1_alg».proof.Proof.Gen.KernelIdeal.Launch
import proofs.«173132_j32899449488056_1_alg».proof.Proof.Gen.KernelIdeal.Points
import proofs.«173132_j32899449488056_1_alg».proof.Proof.Gen.ReferenceIdeal
import proofs.«173132_j32899449488056_1_alg».proof.Proof.Gen.Pre_finite_inputs
import proofs.«173132_j32899449488056_1_alg».proof.Proof.Gen.ReferenceIdeal.Run
import proofs.«173132_j32899449488056_1_alg».proof.Proof.Gen.ReferenceIdeal.Read
import proofs.«173132_j32899449488056_1_alg».proof.Proof.KernelRegion
import proofs.«173132_j32899449488056_1_alg».proof.Proof.KernelIdealRegion
import proofs.«173132_j32899449488056_1_alg».proof.Proof.KernelIdealValue
import proofs.«173132_j32899449488056_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Region.frame m ρ,
  fun m ρ _ => Cert.KernelIdeal.Region.frame m ρ,
  fun m ρ _ => (θ_run Cert.ReferenceIdeal.defs _ _).mono (fun _ h c => (h c).2) (Cert.ReferenceIdeal.Value.run (F := Ideal) m ρ),
  trivial,
  fun m ρ m' ρ' _ hagree => ⟨fun c => Cert.KernelIdeal.Blocks.result m c, Cert.KernelIdeal.Blocks.run m ρ,
    (θ_run Cert.ReferenceIdeal.defs _ _).mono (fun _ h c => ⟨by
        rw [(h c).1, Cert.ReferenceIdeal.Read.val_main_v72_eq, (hagree c).1, (hagree c).2.1, (hagree c).2.2.1, (hagree c).2.2.2.1,
          (hagree c).2.2.2.2.1, (hagree c).2.2.2.2.2.1, (hagree c).2.2.2.2.2.2.1, (hagree c).2.2.2.2.2.2.2]
        exact Cert.Bridge.ref_eq_kernel m c, (h c).2⟩)
      (Cert.ReferenceIdeal.Value.run (F := Ideal) m' ρ')⟩⟩

end Cert.Proof

end
